-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  main_v3
-- ==== Kernel.lean ====
abbrev S16x3x512x512 : Shape := ⟨4, ![16, 3, 512, 512]⟩
abbrev S16x1x512x512 : Shape := ⟨4, ![16, 1, 512, 512]⟩
abbrev S1x3x512x512 : Shape := ⟨4, ![1, 3, 512, 512]⟩
abbrev S1x1x512x512 : Shape := ⟨4, ![1, 1, 512, 512]⟩
abbrev S3x512x512 : Shape := ⟨3, ![3, 512, 512]⟩
abbrev S512x512 : Shape := ⟨2, ![512, 512]⟩
abbrev S512x1 : Shape := ⟨2, ![512, 1]⟩
abbrev S512x526 : Shape := ⟨2, ![512, 526]⟩
abbrev S1x526 : Shape := ⟨2, ![1, 526]⟩
abbrev S526x526 : Shape := ⟨2, ![526, 526]⟩
abbrev S526x512 : Shape := ⟨2, ![526, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x3x512x512, .f32⟩
  | .hbm, ⟨1, _⟩ => ⟨S16x1x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x512x512, .f32⟩
  | .local _ .vmem, ⟨3, _⟩ => ⟨S1x1x512x512, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  reduces_S3x512x512_S512x512 : S3x512x512.Reduces [0] S512x512
  slices_S512x512_o0_7_S512x1 : S512x512.Slices ![0, 7] S512x1
  slices_S512x512_o0_6_S512x1 : S512x512.Slices ![0, 6] S512x1
  slices_S512x512_o0_5_S512x1 : S512x512.Slices ![0, 5] S512x1
  slices_S512x512_o0_4_S512x1 : S512x512.Slices ![0, 4] S512x1
  slices_S512x512_o0_3_S512x1 : S512x512.Slices ![0, 3] S512x1
  slices_S512x512_o0_2_S512x1 : S512x512.Slices ![0, 2] S512x1
  slices_S512x512_o0_1_S512x1 : S512x512.Slices ![0, 1] S512x1
  slices_S512x512_o0_510_S512x1 : S512x512.Slices ![0, 510] S512x1
  slices_S512x512_o0_509_S512x1 : S512x512.Slices ![0, 509] S512x1
  slices_S512x512_o0_508_S512x1 : S512x512.Slices ![0, 508] S512x1
  slices_S512x512_o0_507_S512x1 : S512x512.Slices ![0, 507] S512x1
  slices_S512x512_o0_506_S512x1 : S512x512.Slices ![0, 506] S512x1
  slices_S512x512_o0_505_S512x1 : S512x512.Slices ![0, 505] S512x1
  slices_S512x512_o0_504_S512x1 : S512x512.Slices ![0, 504] S512x1
  concatenates_S512x1_S512x1_S512x1_S512x1_S512x1_S512x1_S512x1_S512x512_S512x1_S512x1_S512x1_S512x1_S512x1_S512x1_S512x1_S512x526_d1 : Shape.Concatenates [S512x1, S512x1, S512x1, S512x1, S512x1, S512x1, S512x1, S512x512, S512x1, S512x1, S512x1, S512x1, S512x1, S512x1, S512x1] S512x526 1
  slices_S512x526_o7_0_S1x526 : S512x526.Slices ![7, 0] S1x526
  slices_S512x526_o6_0_S1x526 : S512x526.Slices ![6, 0] S1x526
  slices_S512x526_o5_0_S1x526 : S512x526.Slices ![5, 0] S1x526
  slices_S512x526_o4_0_S1x526 : S512x526.Slices ![4, 0] S1x526
  slices_S512x526_o3_0_S1x526 : S512x526.Slices ![3, 0] S1x526
  slices_S512x526_o2_0_S1x526 : S512x526.Slices ![2, 0] S1x526
  slices_S512x526_o1_0_S1x526 : S512x526.Slices ![1, 0] S1x526
  slices_S512x526_o510_0_S1x526 : S512x526.Slices ![510, 0] S1x526
  slices_S512x526_o509_0_S1x526 : S512x526.Slices ![509, 0] S1x526
  slices_S512x526_o508_0_S1x526 : S512x526.Slices ![508, 0] S1x526
  slices_S512x526_o507_0_S1x526 : S512x526.Slices ![507, 0] S1x526
  slices_S512x526_o506_0_S1x526 : S512x526.Slices ![506, 0] S1x526
  slices_S512x526_o505_0_S1x526 : S512x526.Slices ![505, 0] S1x526
  slices_S512x526_o504_0_S1x526 : S512x526.Slices ![504, 0] S1x526
  concatenates_S1x526_S1x526_S1x526_S1x526_S1x526_S1x526_S1x526_S512x526_S1x526_S1x526_S1x526_S1x526_S1x526_S1x526_S1x526_S526x526_d0 : Shape.Concatenates [S1x526, S1x526, S1x526, S1x526, S1x526, S1x526, S1x526, S512x526, S1x526, S1x526, S1x526, S1x526, S1x526, S1x526, S1x526] S526x526 0
  slices_S526x526_o0_0_S526x512 : S526x526.Slices ![0, 0] S526x512
  slices_S526x526_o0_1_S526x512 : S526x526.Slices ![0, 1] S526x512
  slices_S526x526_o0_2_S526x512 : S526x526.Slices ![0, 2] S526x512
  slices_S526x526_o0_3_S526x512 : S526x526.Slices ![0, 3] S526x512
  slices_S526x526_o0_4_S526x512 : S526x526.Slices ![0, 4] S526x512
  slices_S526x526_o0_5_S526x512 : S526x526.Slices ![0, 5] S526x512
  slices_S526x526_o0_6_S526x512 : S526x526.Slices ![0, 6] S526x512
  slices_S526x526_o0_7_S526x512 : S526x526.Slices ![0, 7] S526x512
  slices_S526x526_o0_8_S526x512 : S526x526.Slices ![0, 8] S526x512
  slices_S526x526_o0_9_S526x512 : S526x526.Slices ![0, 9] S526x512
  slices_S526x526_o0_10_S526x512 : S526x526.Slices ![0, 10] S526x512
  slices_S526x526_o0_11_S526x512 : S526x526.Slices ![0, 11] S526x512
  slices_S526x526_o0_12_S526x512 : S526x526.Slices ![0, 12] S526x512
  slices_S526x526_o0_13_S526x512 : S526x526.Slices ![0, 13] S526x512
  slices_S526x526_o0_14_S526x512 : S526x526.Slices ![0, 14] S526x512
  slices_S526x512_o0_0_S512x512 : S526x512.Slices ![0, 0] S512x512
  slices_S526x512_o1_0_S512x512 : S526x512.Slices ![1, 0] S512x512
  slices_S526x512_o2_0_S512x512 : S526x512.Slices ![2, 0] S512x512
  slices_S526x512_o3_0_S512x512 : S526x512.Slices ![3, 0] S512x512
  slices_S526x512_o4_0_S512x512 : S526x512.Slices ![4, 0] S512x512
  slices_S526x512_o5_0_S512x512 : S526x512.Slices ![5, 0] S512x512
  slices_S526x512_o6_0_S512x512 : S526x512.Slices ![6, 0] S512x512
  slices_S526x512_o7_0_S512x512 : S526x512.Slices ![7, 0] S512x512
  slices_S526x512_o8_0_S512x512 : S526x512.Slices ![8, 0] S512x512
  slices_S526x512_o9_0_S512x512 : S526x512.Slices ![9, 0] S512x512
  slices_S526x512_o10_0_S512x512 : S526x512.Slices ![10, 0] S512x512
  slices_S526x512_o11_0_S512x512 : S526x512.Slices ![11, 0] S512x512
  slices_S526x512_o12_0_S512x512 : S526x512.Slices ![12, 0] S512x512
  slices_S526x512_o13_0_S512x512 : S526x512.Slices ![13, 0] S512x512
  slices_S526x512_o14_0_S512x512 : S526x512.Slices ![14, 0] S512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S_ : Shape := ⟨0, ![]⟩
abbrev S16x512x512 : Shape := ⟨3, ![16, 512, 512]⟩
abbrev S16x1x512x512 : Shape := ⟨4, ![16, 1, 512, 512]⟩
abbrev S16x1x1x512 : Shape := ⟨4, ![16, 1, 1, 512]⟩
abbrev S16x1x7x512 : Shape := ⟨4, ![16, 1, 7, 512]⟩
abbrev S16x1x519x512 : Shape := ⟨4, ![16, 1, 519, 512]⟩
abbrev S16x1x526x512 : Shape := ⟨4, ![16, 1, 526, 512]⟩
abbrev S16x1x526x1 : Shape := ⟨4, ![16, 1, 526, 1]⟩
abbrev S16x1x526x7 : Shape := ⟨4, ![16, 1, 526, 7]⟩
abbrev S16x1x526x519 : Shape := ⟨4, ![16, 1, 526, 519]⟩
abbrev S16x1x526x526 : Shape := ⟨4, ![16, 1, 526, 526]⟩

abbrev nBuf : Space → Nat
  | .hbm => 24
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S_, .f32⟩
  | .hbm, ⟨2, _⟩ => ⟨S16x512x512, .f32⟩
  | .hbm, ⟨3, _⟩ => ⟨S16x1x512x512, .f32⟩
  | .hbm, ⟨4, _⟩ => ⟨S_, .i32⟩
  | .hbm, ⟨5, _⟩ => ⟨S16x1x1x512, .f32⟩
  | .hbm, ⟨6, _⟩ => ⟨S16x1x7x512, .f32⟩
  | .hbm, ⟨7, _⟩ => ⟨S16x1x7x512, .f32⟩
  | .hbm, ⟨8, _⟩ => ⟨S16x1x519x512, .f32⟩
  | .hbm, ⟨9, _⟩ => ⟨S16x1x1x512, .f32⟩
  | .hbm, ⟨10, _⟩ => ⟨S16x1x7x512, .f32⟩
  | .hbm, ⟨11, _⟩ => ⟨S16x1x7x512, .f32⟩
  | .hbm, ⟨12, _⟩ => ⟨S16x1x526x512, .f32⟩
  | .hbm, ⟨13, _⟩ => ⟨S16x1x526x1, .f32⟩
  | .hbm, ⟨14, _⟩ => ⟨S16x1x526x7, .f32⟩
  | .hbm, ⟨15, _⟩ => ⟨S16x1x526x7, .f32⟩
  | .hbm, ⟨16, _⟩ => ⟨S16x1x526x519, .f32⟩
  | .hbm, ⟨17, _⟩ => ⟨S16x1x526x1, .f32⟩
  | .hbm, ⟨18, _⟩ => ⟨S16x1x526x7, .f32⟩
  | .hbm, ⟨19, _⟩ => ⟨S16x1x526x7, .f32⟩
  | .hbm, ⟨20, _⟩ => ⟨S16x1x526x526, .f32⟩
  | .hbm, ⟨21, _⟩ => ⟨S_, .f32⟩
  | .hbm, ⟨22, _⟩ => ⟨S_, .f32⟩
  | .hbm, ⟨23, _⟩ => ⟨S16x1x512x512, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩

abbrev nD : Nat := 1
abbrev τ : Topo := Topo.v7x

variable {F : FTy → Type} [FloatOps F]

class Facts₀ : Prop where
  reducesTo_S16x3x512x512_S16x512x512_d1 : S16x3x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  slices_S16x1x512x512_S16x1x1x512_0_0_0_0 : S16x1x512x512.Slices ![0, 0, 0, 0] S16x1x1x512
  slices_S16x1x512x512_S16x1x7x512_0_0_1_0 : S16x1x512x512.Slices ![0, 0, 1, 0] S16x1x7x512
  concatenates_S16x1x7x512_S16x1x512x512_S16x1x519x512_d2 : Shape.Concatenates [S16x1x7x512, S16x1x512x512] S16x1x519x512 2
  slices_S16x1x519x512_S16x1x1x512_0_0_518_0 : S16x1x519x512.Slices ![0, 0, 518, 0] S16x1x1x512
  slices_S16x1x519x512_S16x1x7x512_0_0_511_0 : S16x1x519x512.Slices ![0, 0, 511, 0] S16x1x7x512
  concatenates_S16x1x519x512_S16x1x7x512_S16x1x526x512_d2 : Shape.Concatenates [S16x1x519x512, S16x1x7x512] S16x1x526x512 2
  slices_S16x1x526x512_S16x1x526x1_0_0_0_0 : S16x1x526x512.Slices ![0, 0, 0, 0] S16x1x526x1
  slices_S16x1x526x512_S16x1x526x7_0_0_0_1 : S16x1x526x512.Slices ![0, 0, 0, 1] S16x1x526x7
  concatenates_S16x1x526x7_S16x1x526x512_S16x1x526x519_d3 : Shape.Concatenates [S16x1x526x7, S16x1x526x512] S16x1x526x519 3
  slices_S16x1x526x519_S16x1x526x1_0_0_0_518 : S16x1x526x519.Slices ![0, 0, 0, 518] S16x1x526x1
  slices_S16x1x526x519_S16x1x526x7_0_0_0_511 : S16x1x526x519.Slices ![0, 0, 0, 511] S16x1x526x7
  concatenates_S16x1x526x519_S16x1x526x7_S16x1x526x526_d3 : Shape.Concatenates [S16x1x526x519, S16x1x526x7] S16x1x526x526 3
  bcast_S_S_ : S_.BroadcastsInDim S_ (![] : Fin 0 → Fin S_.rank)
  reduceWindows_S16x1x526x526_S16x1x512x512_w1s1p0_0_w1s1p0_0_w15s1p0_0_w15s1p0_0 : S16x1x526x526.ReduceWindows (![1, 1, 15, 15] : Fin 4 → Nat) ![1, 1, 1, 1] ![0, 0, 0, 0] ![0, 0, 0, 0] S16x1x512x512

variable [Facts₀]

class Facts : Prop extends Facts₀ where

variable [Facts]
-- ==== Proof.LibMinFold.lean ====
/-
  Folds of the minimum from the top element, on a complete linear order.

  A left fold of `min` over a list, or a fold of `min` over a finite set, started at `⊤`, is the infimum of
  the folded terms: an element lies below the fold exactly when it lies below the start and below every term
  (`le_min_iff`, step by step), and that is the infimum's universal property. So two such folds over the same
  family of terms agree whatever the order or the grouping of their steps, with no algebra beyond the lattice
  laws. At the ideal float values (the extended reals) `minimumf` is `min` and the pattern of +∞ is `⊤`.
-/
import Idealize.ShloMosaic.PureOps.Ideal.Laws

namespace MinFold

open Idealize.ShloMosaic

section Lattice
variable {α : Type} [CompleteLinearOrder α]

/-- An element is below a left fold of `min` exactly when it is below the start and below every folded term. -/
theorem le_foldl_min_iff {ι : Type} (g : ι → α) (l : List ι) (v z : α) :
    z ≤ l.foldl (fun r n => min r (g n)) v ↔ z ≤ v ∧ ∀ n ∈ l, z ≤ g n := by
  induction l generalizing v with
  | nil => simp
  | cons a l ih =>
    rw [List.foldl_cons, ih, le_min_iff]
    constructor
    · rintro ⟨⟨h1, h2⟩, h3⟩
      refine ⟨h1, fun n hn => ?_⟩
      rcases List.mem_cons.1 hn with rfl | h
      · exact h2
      · exact h3 n h
    · rintro ⟨h1, h2⟩
      exact ⟨⟨h1, h2 a List.mem_cons_self⟩, fun n hn => h2 n (List.mem_cons_of_mem _ hn)⟩

/-- A left fold of `min` from `⊤` over all of `Fin n`, in any listing that contains every element, is the infimum. -/
theorem foldl_min_top_eq_iInf {n : Nat} (g : Fin n → α) (l : List (Fin n)) (hl : ∀ k, k ∈ l) :
    l.foldl (fun r k => min r (g k)) ⊤ = ⨅ k, g k := by
  refine eq_of_forall_le_iff fun z => ?_
  rw [le_foldl_min_iff, le_iInf_iff]
  exact ⟨fun h k => h.2 k (hl k), fun h => ⟨le_top, fun k _ => h k⟩⟩

/-- The row-major left fold over `List.finRange n`. -/
theorem foldl_min_finRange {n : Nat} (g : Fin n → α) :
    (List.finRange n).foldl (fun r k => min r (g k)) ⊤ = ⨅ k, g k :=
  foldl_min_top_eq_iInf g _ List.mem_finRange

/-- A finite-set fold of `min` from `⊤` over a whole finite type is the infimum. -/
theorem fold_min_univ_eq_iInf {ι : Type} [Fintype ι] (g : ι → α) :
    (Finset.univ : Finset ι).fold min ⊤ g = ⨅ k, g k := by
  refine eq_of_forall_le_iff fun z => ?_
  rw [Finset.le_fold_min, le_iInf_iff]
  exact ⟨fun h k => h.2 k (Finset.mem_univ k), fun h => ⟨le_top, fun k _ => h k⟩⟩

/-- Fifteen taps folded one after the other from `⊤`, written out: the infimum of the taps. -/
theorem min15_eq_iInf (a : Fin 15 → α) :
    min (min (min (min (min (min (min (min (min (min (min (min (min (min (min ⊤ (a 0)) (a 1)) (a 2)) (a 3)) (a 4)) (a 5)) (a 6))
      (a 7)) (a 8)) (a 9)) (a 10)) (a 11)) (a 12)) (a 13)) (a 14) = ⨅ k, a k :=
  (foldl_min_finRange a).symm ▸ rfl

end Lattice

/-- The f32 pattern of +∞ is the top extended real. -/
theorem ofBits_inf_f32 : Ideal.ofBits .f32 0x7F800000#32 = ⊤ := by simp [Ideal.ofBits, Ideal.ieee]

end MinFold
-- ==== Proof.Spec.lean ====
/-
  The dark channel of an image batch, as one function of the input array.

  For an input `x` of shape [16, 3, 512, 512] the result at `[b, 0, r, c]` is the minimum, over the 15 × 15
  window of offsets `(di, dj)` and the 3 channels `ch`, of `x[b, ch, ρ(r + di), ρ(c + dj)]`, where `ρ` folds a
  coordinate of the axis padded by 7 on each side (526 positions) back onto the axis by reflection about its
  first and last elements without repeating them: `ρ k = 7 - k` below 7, `k - 7` up to 518, `1029 - k` from 519.
  On the extended reals the minimum of a finite family is its infimum, and the start value +∞ of a fold is
  the infimum's neutral element, so the result is written as an iterated infimum.
-/
import Idealize.ShloMosaic.Lib.ValueIdx
import Idealize.ShloMosaic.PureOps.Ideal

noncomputable section

namespace Dark

open Idealize.ShloMosaic Idealize.ShloMosaic.ValueIdx

/-- Reflection of a coordinate of the padded axis (7 + 512 + 7 positions) onto the axis of 512. -/
def refl (k : Nat) : Nat := if k < 7 then 7 - k else if k < 519 then k - 7 else 1029 - k

theorem refl_lt {k : Nat} (h : k < 526) : refl k < 512 := by
  unfold refl; split_ifs <;> omega

/-- The source coordinate a padded coordinate reads. -/
def reflF (k : Fin 526) : Fin 512 := ⟨refl k.val, refl_lt k.isLt⟩

/-- Position `d` of the window that starts at `r`, on the padded axis. -/
def tap (r : Fin 512) (d : Fin 15) : Fin 526 := ⟨r.val + d.val, by have := r.isLt; have := d.isLt; omega⟩

/-- The dark channel at batch `b`, row `r`, column `c`. -/
def darkAt (x : (⟨4, ![16, 3, 512, 512]⟩ : Shape).Idx → EReal) (b : Fin 16) (r c : Fin 512) : EReal :=
  ⨅ (di : Fin 15) (dj : Fin 15) (ch : Fin 3), x (ix4 b ch (reflF (tap r di)) (reflF (tap c dj)))

/-- The dark channel as an array of shape [16, 1, 512, 512]. -/
def dark (x : (⟨4, ![16, 3, 512, 512]⟩ : Shape).Idx → EReal) : (⟨4, ![16, 1, 512, 512]⟩ : Shape).Idx → EReal :=
  fun i => darkAt x (i 0) (i 2) (i 3)

theorem dark_apply (x : (⟨4, ![16, 3, 512, 512]⟩ : Shape).Idx → EReal) (b : Fin 16) (u : Fin 1) (r c : Fin 512) :
    dark x (ix4 b u r c) = darkAt x b r c := rfl

end Dark

end
-- ==== Proof.Passes.lean ====
/-
  The two sliding-minimum passes of the kernel body, read at an index.

  The body takes the minimum over a 15 × 15 window separably: first, for every row of the padded array `P`
  (526 × 526), the minimum of 15 neighbouring columns, giving an array of 526 × 512; then, for every column of
  that, the minimum of 15 neighbouring rows, giving 512 × 512. Each pass folds `min` from +∞ over fifteen
  unit-stride slices, tap after tap; a slice at offsets `(o0, o1)` read at `(p, q)` is the operand at
  `(o0 + p, o1 + q)`, and a fold of pointwise minima read at an index is the fold of the minima of the
  operands' entries there, so each pass at an index is the infimum of its fifteen taps.
-/
import proofs.«115973_j8375186227709_1_alg».proof.Proof.Gen.KernelIdeal.Skeleton
import proofs.«115973_j8375186227709_1_alg».proof.Proof.LibMinFold
import proofs.«115973_j8375186227709_1_alg».proof.Proof.Spec
import Idealize.ShloMosaic.Lib.ValueIdx
import Idealize.ShloMosaic.Lib.Pipeline.Value

noncomputable section

namespace Cert.KernelIdeal.DarkValue

open Cert.KernelIdeal Cert.KernelIdeal.Gen Idealize.ShloMosaic Idealize.ShloMosaic.ValueIdx

/-- Two rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- A unit-stride slice of a rank-2 array stays inside it, axis 0. -/
theorem slice2_lt0 {n0 n1 t0 t1 o0 o1 : Nat}
    (h : (⟨2, ![n0, n1]⟩ : Shape).Slices ![o0, o1] ⟨2, ![t0, t1]⟩) (p : Fin t0) : o0 + p.val < n0 := by
  have h0 : o0 + t0 ≤ n0 := h.2 0
  have := p.isLt; omega

/-- A unit-stride slice of a rank-2 array stays inside it, axis 1. -/
theorem slice2_lt1 {n0 n1 t0 t1 o0 o1 : Nat}
    (h : (⟨2, ![n0, n1]⟩ : Shape).Slices ![o0, o1] ⟨2, ![t0, t1]⟩) (q : Fin t1) : o1 + q.val < n1 := by
  have h1 : o1 + t1 ≤ n1 := h.2 1
  have := q.isLt; omega

/-- A unit-stride slice of a rank-2 array at `(p, q)` is the array at `(o0 + p, o1 + q)`. -/
theorem slice2_apply {α : Type} {n0 n1 t0 t1 o0 o1 : Nat} (X : (⟨2, ![n0, n1]⟩ : Shape).Idx → α)
    (h : (⟨2, ![n0, n1]⟩ : Shape).Slices ![o0, o1] ⟨2, ![t0, t1]⟩) (p : Fin t0) (q : Fin t1) :
    extractStridedSlice ⟨2, ![t0, t1]⟩ ![o0, o1] X h (ix2 p q)
      = X (ix2 ⟨o0 + p.val, slice2_lt0 h p⟩ ⟨o1 + q.val, slice2_lt1 h q⟩) :=
  extractStridedSlice_apply _ X h _ _ (fun a => by match a with | ⟨0, _⟩ => rfl | ⟨1, _⟩ => rfl)

/-- A left fold of pointwise minima, read at an index, is the left fold of the minima of the entries there. -/
theorem foldl_minimumf_apply {S : Shape} {ι : Type} (g : ι → FVec Ideal S .f32) (l : List ι) (init : FVec Ideal S .f32)
    (i : S.Idx) :
    l.foldl (fun acc k => minimumf acc (g k)) init i = l.foldl (fun r k => min r (g k i)) (init i) := by
  induction l generalizing init with
  | nil => rfl
  | cons a l ih => rw [List.foldl_cons, List.foldl_cons, ih]; rfl

/-- The fifteen taps of a window, in the order the body takes them. -/
def taps : List (Fin 15) := [0, 1, 2, 3, 4, 5, 6, 7, 8, 9, 10, 11, 12, 13, 14]

theorem mem_taps : ∀ k : Fin 15, k ∈ taps := by decide

/-- Tap `k` of the row pass is a slice of the padded array at column offset `k`. -/
theorem rowSlices (k : Fin 15) : S526x526.Slices ![0, k.val] S526x512 :=
  ⟨rfl, fun a => by
    have := k.isLt
    match a with
    | ⟨0, _⟩ => show 0 + 526 ≤ 526; omega
    | ⟨1, _⟩ => show k.val + 512 ≤ 526; omega⟩

/-- Tap `k` of the column pass is a slice of the row pass's result at row offset `k`. -/
theorem colSlices (k : Fin 15) : S526x512.Slices ![k.val, 0] S512x512 :=
  ⟨rfl, fun a => by
    have := k.isLt
    match a with
    | ⟨0, _⟩ => show k.val + 512 ≤ 526; omega
    | ⟨1, _⟩ => show 0 + 512 ≤ 512; omega⟩

/-- The row pass: for every row of `P`, the minimum of 15 neighbouring columns, from +∞. -/
def rowPass (P : FVec Ideal S526x526 .f32) : FVec Ideal S526x512 .f32 :=
  taps.foldl (fun acc k => minimumf acc (extractStridedSlice S526x512 ![0, k.val] P (rowSlices k)))
    (broadcast S526x512 (Scalar.ofBits .f32 0x7F800000#32))

/-- The column pass: for every column of `Q`, the minimum of 15 neighbouring rows, from +∞. -/
def colPass (Q : FVec Ideal S526x512 .f32) : FVec Ideal S512x512 .f32 :=
  taps.foldl (fun acc k => minimumf acc (extractStridedSlice S512x512 ![k.val, 0] Q (colSlices k)))
    (broadcast S512x512 (Scalar.ofBits .f32 0x7F800000#32))

/-- The body's stored value is the column pass of the row pass of the padded array, with two unit axes put in front. -/
theorem payload_eq_passes (x0 : Vec Ideal S1x3x512x512 .f32) :
    k0_pay1 (k0_pay2 x0) (k0_pay3 x0) (k0_pay4 x0)
      = shapeCast S1x1x512x512 (colPass (rowPass (k0_pay2 x0))) shapeCasts_S512x512_S1x1x512x512 := rfl

/-- The start value of both folds is the top extended real. -/
theorem start_top : (Scalar.ofBits .f32 0x7F800000#32 : Ideal .f32) = ⊤ := MinFold.ofBits_inf_f32

/-- The row pass at `(p, q)`: the infimum of the 15 entries of row `p` from column `q` on. -/
theorem rowPass_apply (P : FVec Ideal S526x526 .f32) (p : Fin 526) (q : Fin 512) :
    rowPass P (ix2 p q) = ⨅ dj : Fin 15, P (ix2 p (Dark.tap q dj)) := by
  unfold rowPass
  rw [foldl_minimumf_apply, broadcast_apply, start_top, MinFold.foldl_min_top_eq_iInf _ _ mem_taps]
  refine iInf_congr fun dj => ?_
  rw [slice2_apply]
  exact congrArg P (ix2_congr (by simp) (by simp [Dark.tap]; omega))

/-- The column pass at `(r, c)`: the infimum of the 15 entries of column `c` from row `r` on. -/
theorem colPass_apply (Q : FVec Ideal S526x512 .f32) (r c : Fin 512) :
    colPass Q (ix2 r c) = ⨅ di : Fin 15, Q (ix2 (Dark.tap r di) c) := by
  unfold colPass
  rw [foldl_minimumf_apply, broadcast_apply, start_top, MinFold.foldl_min_top_eq_iInf _ _ mem_taps]
  refine iInf_congr fun di => ?_
  rw [slice2_apply]
  exact congrArg Q (ix2_congr (by simp [Dark.tap]; omega) (by simp))

/-- Two unit axes put in front of a 512 × 512 array. -/
theorem unit2_apply {α : Type} (X : S512x512.Idx → α) (h : S512x512.ShapeCasts S1x1x512x512) (u v : Fin 1) (r c : Fin 512) :
    shapeCast S1x1x512x512 X h (ix4 u v r c) = X (ix2 r c) :=
  shapeCast_apply X h _ _ (by
    have hu : u.val = 0 := by omega
    have hv : v.val = 0 := by omega
    rw [Shape.rowMajor_val_four, Shape.rowMajor_val_two]
    show r.val * 512 + c.val = ((u.val * 1 + v.val) * 512 + r.val) * 512 + c.val
    rw [hu, hv]; omega)

/-- The body's stored value at `(r, c)`: the infimum over the window of the padded array. -/
theorem passes_apply (x0 : Vec Ideal S1x3x512x512 .f32) (r c : Fin 512) :
    k0_pay1 (k0_pay2 x0) (k0_pay3 x0) (k0_pay4 x0) (ix4 0 0 r c)
      = ⨅ (di : Fin 15) (dj : Fin 15), k0_pay2 x0 (ix2 (Dark.tap r di) (Dark.tap c dj)) := by
  rw [payload_eq_passes, unit2_apply, colPass_apply]
  refine iInf_congr fun di => ?_
  rw [rowPass_apply]

end Cert.KernelIdeal.DarkValue

end
-- ==== Proof.PadRead.lean ====
/-
  The kernel's reflection padding and channel minimum, read at an index.

  The body first takes, entry by entry, the minimum `M` of the three channels of its input block (a fold of
  `min` from +∞ over the channel axis). It then pads `M` (512 × 512) by reflection to 526 × 526 with static
  slices and concatenations: along the columns it puts columns 7, 6, …, 1 in front and columns 510, 509, …, 504
  behind, and then along the rows the same with rows. A concatenation read at an index is the piece that
  holds the coordinate; going through the fifteen pieces, the padded array at `(p, q)` is `M` at
  `(ρ p, ρ q)`, `ρ` the reflection of the specification.
-/
import proofs.«115973_j8375186227709_1_alg».proof.Proof.Passes
import Idealize.ShloMosaic.Lib.ValueLayout
import Idealize.ShloMosaic.PureOps.Ideal.Laws

noncomputable section

namespace Cert.KernelIdeal.DarkValue

open Cert.KernelIdeal Cert.KernelIdeal.Gen Idealize.ShloMosaic Idealize.ShloMosaic.ValueIdx

/-- The single column `o` of a 512 × 512 array is a slice of it. -/
theorem colSlice (o : Fin 512) : S512x512.Slices ![0, o.val] S512x1 :=
  ⟨rfl, fun a => by
    have := o.isLt
    match a with
    | ⟨0, _⟩ => show 0 + 512 ≤ 512; omega
    | ⟨1, _⟩ => show o.val + 1 ≤ 512; omega⟩

/-- Column `o` of `M`, as a piece of a concatenation along the columns. -/
def colPiece (M : FVec Ideal S512x512 .f32) (o : Fin 512) : (s : Shape) × (s.Idx → Ideal .f32) :=
  ⟨S512x1, extractStridedSlice S512x1 ![0, o.val] M (colSlice o)⟩

/-- `M` padded along the columns: columns 7 … 1, then `M`, then columns 510 … 504. -/
def padCols (M : FVec Ideal S512x512 .f32) : FVec Ideal S512x526 .f32 :=
  concatenate S512x526 1
    [colPiece M 7, colPiece M 6, colPiece M 5, colPiece M 4, colPiece M 3, colPiece M 2, colPiece M 1, ⟨S512x512, M⟩,
     colPiece M 510, colPiece M 509, colPiece M 508, colPiece M 507, colPiece M 506, colPiece M 505, colPiece M 504]
    concatenates_S512x1_S512x1_S512x1_S512x1_S512x1_S512x1_S512x1_S512x512_S512x1_S512x1_S512x1_S512x1_S512x1_S512x1_S512x1_S512x526_d1

/-- Reading a single-column piece of a concatenation along the columns. -/
theorem concat_col1 {α : Type} (xs : List ((s : Shape) × (s.Idx → α))) (h : Shape.Concatenates (xs.map (·.1)) S512x526 1)
    (k : Nat) (hk : k < xs.length) (x₁ : S512x1.Idx → α) (hxk : xs[k] = ⟨S512x1, x₁⟩) (pre : Nat)
    (hpre : (((xs.take k).map (·.1)).map fun s => if h : s.rank = S512x526.rank then s.size ((1 : Fin S512x526.rank).cast h.symm) else 0).sum = pre)
    (r : Fin 512) (hq : pre < 526) :
    concatenate S512x526 1 xs h (ix2 r ⟨pre, hq⟩) = x₁ (ix2 r 0) :=
  concatenate_apply_piece 1 xs h _ k hk S512x1 x₁ hxk rfl pre hpre (ix2 r 0)
    (fun b hb => by match b with | ⟨0, _⟩ => rfl | ⟨1, _⟩ => exact absurd rfl hb) rfl

/-- A column of `M` read as a piece. -/
theorem colPiece_apply (M : FVec Ideal S512x512 .f32) (o : Fin 512) (r : Fin 512) :
    (colPiece M o).2 (ix2 r 0) = M (ix2 r o) := by
  show extractStridedSlice S512x1 ![0, o.val] M (colSlice o) (ix2 r 0) = M (ix2 r o)
  rw [slice2_apply]
  exact congrArg M (ix2_congr (Nat.zero_add _) (Nat.add_zero _))

/-- Reading the wide piece of a concatenation along the columns: the coordinate less the extents before it. -/
theorem concat_colWide {α : Type} (xs : List ((s : Shape) × (s.Idx → α))) (h : Shape.Concatenates (xs.map (·.1)) S512x526 1)
    (k : Nat) (hk : k < xs.length) (x₁ : S512x512.Idx → α) (hxk : xs[k] = ⟨S512x512, x₁⟩) (pre : Nat)
    (hpre : (((xs.take k).map (·.1)).map fun s => if h : s.rank = S512x526.rank then s.size ((1 : Fin S512x526.rank).cast h.symm) else 0).sum = pre)
    (r : Fin 512) (qv : Nat) (hq : qv < 526) (hlo : pre ≤ qv) (hhi : qv - pre < 512) :
    concatenate S512x526 1 xs h (ix2 r ⟨qv, hq⟩) = x₁ (ix2 r ⟨qv - pre, hhi⟩) :=
  concatenate_apply_piece 1 xs h _ k hk S512x512 x₁ hxk rfl pre hpre (ix2 r ⟨qv - pre, hhi⟩)
    (fun b hb => by match b with | ⟨0, _⟩ => rfl | ⟨1, _⟩ => exact absurd rfl hb) (by show pre + (qv - pre) = qv; omega)

set_option maxHeartbeats 4000000 in
/-- The columns pad at `(r, q)`: `M` at column `ρ q`. -/
theorem padCols_apply (M : FVec Ideal S512x512 .f32) (r : Fin 512) (q : Fin 526) :
    padCols M (ix2 r q) = M (ix2 r (Dark.reflF q)) := by
  obtain ⟨qv, hq⟩ := q
  have hcases : qv = 0 ∨ qv = 1 ∨ qv = 2 ∨ qv = 3 ∨ qv = 4 ∨ qv = 5 ∨ qv = 6 ∨ (7 ≤ qv ∧ qv < 519)
      ∨ qv = 519 ∨ qv = 520 ∨ qv = 521 ∨ qv = 522 ∨ qv = 523 ∨ qv = 524 ∨ qv = 525 := by omega
  unfold padCols
  rcases hcases with h | h | h | h | h | h | h | h | h | h | h | h | h | h | h
  · subst h
    exact (concat_col1 _ _ 0 (by simp) _ rfl 0 rfl r hq).trans ((colPiece_apply M 7 r).trans (congrArg M (ix2_congr rfl rfl)))
  · subst h
    exact (concat_col1 _ _ 1 (by simp) _ rfl 1 rfl r hq).trans ((colPiece_apply M 6 r).trans (congrArg M (ix2_congr rfl rfl)))
  · subst h
    exact (concat_col1 _ _ 2 (by simp) _ rfl 2 rfl r hq).trans ((colPiece_apply M 5 r).trans (congrArg M (ix2_congr rfl rfl)))
  · subst h
    exact (concat_col1 _ _ 3 (by simp) _ rfl 3 rfl r hq).trans ((colPiece_apply M 4 r).trans (congrArg M (ix2_congr rfl rfl)))
  · subst h
    exact (concat_col1 _ _ 4 (by simp) _ rfl 4 rfl r hq).trans ((colPiece_apply M 3 r).trans (congrArg M (ix2_congr rfl rfl)))
  · subst h
    exact (concat_col1 _ _ 5 (by simp) _ rfl 5 rfl r hq).trans ((colPiece_apply M 2 r).trans (congrArg M (ix2_congr rfl rfl)))
  · subst h
    exact (concat_col1 _ _ 6 (by simp) _ rfl 6 rfl r hq).trans ((colPiece_apply M 1 r).trans (congrArg M (ix2_congr rfl rfl)))
  · refine (concat_colWide _ _ 7 (by simp) M rfl 7 rfl r qv hq h.1 (by omega)).trans ?_
    refine congrArg M (ix2_congr rfl ?_)
    show qv - 7 = Dark.refl qv
    unfold Dark.refl; rw [if_neg (by omega), if_pos h.2]
  · subst h
    exact (concat_col1 _ _ 8 (by simp) _ rfl 519 rfl r hq).trans ((colPiece_apply M 510 r).trans (congrArg M (ix2_congr rfl rfl)))
  · subst h
    exact (concat_col1 _ _ 9 (by simp) _ rfl 520 rfl r hq).trans ((colPiece_apply M 509 r).trans (congrArg M (ix2_congr rfl rfl)))
  · subst h
    exact (concat_col1 _ _ 10 (by simp) _ rfl 521 rfl r hq).trans ((colPiece_apply M 508 r).trans (congrArg M (ix2_congr rfl rfl)))
  · subst h
    exact (concat_col1 _ _ 11 (by simp) _ rfl 522 rfl r hq).trans ((colPiece_apply M 507 r).trans (congrArg M (ix2_congr rfl rfl)))
  · subst h
    exact (concat_col1 _ _ 12 (by simp) _ rfl 523 rfl r hq).trans ((colPiece_apply M 506 r).trans (congrArg M (ix2_congr rfl rfl)))
  · subst h
    exact (concat_col1 _ _ 13 (by simp) _ rfl 524 rfl r hq).trans ((colPiece_apply M 505 r).trans (congrArg M (ix2_congr rfl rfl)))
  · subst h
    exact (concat_col1 _ _ 14 (by simp) _ rfl 525 rfl r hq).trans ((colPiece_apply M 504 r).trans (congrArg M (ix2_congr rfl rfl)))

/-! ## The rows -/

/-- The single row `o` of a 512 × 526 array is a slice of it. -/
theorem rowSlice (o : Fin 512) : S512x526.Slices ![o.val, 0] S1x526 :=
  ⟨rfl, fun a => by
    have := o.isLt
    match a with
    | ⟨0, _⟩ => show o.val + 1 ≤ 512; omega
    | ⟨1, _⟩ => show 0 + 526 ≤ 526; omega⟩

/-- Row `o` of `W`, as a piece of a concatenation along the rows. -/
def rowPiece (W : FVec Ideal S512x526 .f32) (o : Fin 512) : (s : Shape) × (s.Idx → Ideal .f32) :=
  ⟨S1x526, extractStridedSlice S1x526 ![o.val, 0] W (rowSlice o)⟩

/-- `W` padded along the rows: rows 7 … 1, then `W`, then rows 510 … 504. -/
def padRows (W : FVec Ideal S512x526 .f32) : FVec Ideal S526x526 .f32 :=
  concatenate S526x526 0
    [rowPiece W 7, rowPiece W 6, rowPiece W 5, rowPiece W 4, rowPiece W 3, rowPiece W 2, rowPiece W 1, ⟨S512x526, W⟩,
     rowPiece W 510, rowPiece W 509, rowPiece W 508, rowPiece W 507, rowPiece W 506, rowPiece W 505, rowPiece W 504]
    concatenates_S1x526_S1x526_S1x526_S1x526_S1x526_S1x526_S1x526_S512x526_S1x526_S1x526_S1x526_S1x526_S1x526_S1x526_S1x526_S526x526_d0

/-- Reading a single-row piece of a concatenation along the rows. -/
theorem concat_row1 {α : Type} (xs : List ((s : Shape) × (s.Idx → α))) (h : Shape.Concatenates (xs.map (·.1)) S526x526 0)
    (k : Nat) (hk : k < xs.length) (x₁ : S1x526.Idx → α) (hxk : xs[k] = ⟨S1x526, x₁⟩) (pre : Nat)
    (hpre : (((xs.take k).map (·.1)).map fun s => if h : s.rank = S526x526.rank then s.size ((0 : Fin S526x526.rank).cast h.symm) else 0).sum = pre)
    (hp : pre < 526) (q : Fin 526) :
    concatenate S526x526 0 xs h (ix2 ⟨pre, hp⟩ q) = x₁ (ix2 0 q) :=
  concatenate_apply_piece 0 xs h _ k hk S1x526 x₁ hxk rfl pre hpre (ix2 0 q)
    (fun b hb => by match b with | ⟨0, _⟩ => exact absurd rfl hb | ⟨1, _⟩ => rfl) rfl

/-- Reading the tall piece of a concatenation along the rows: the coordinate less the extents before it. -/
theorem concat_rowTall {α : Type} (xs : List ((s : Shape) × (s.Idx → α))) (h : Shape.Concatenates (xs.map (·.1)) S526x526 0)
    (k : Nat) (hk : k < xs.length) (x₁ : S512x526.Idx → α) (hxk : xs[k] = ⟨S512x526, x₁⟩) (pre : Nat)
    (hpre : (((xs.take k).map (·.1)).map fun s => if h : s.rank = S526x526.rank then s.size ((0 : Fin S526x526.rank).cast h.symm) else 0).sum = pre)
    (pv : Nat) (hp : pv < 526) (q : Fin 526) (hlo : pre ≤ pv) (hhi : pv - pre < 512) :
    concatenate S526x526 0 xs h (ix2 ⟨pv, hp⟩ q) = x₁ (ix2 ⟨pv - pre, hhi⟩ q) :=
  concatenate_apply_piece 0 xs h _ k hk S512x526 x₁ hxk rfl pre hpre (ix2 ⟨pv - pre, hhi⟩ q)
    (fun b hb => by match b with | ⟨0, _⟩ => exact absurd rfl hb | ⟨1, _⟩ => rfl) (by show pre + (pv - pre) = pv; omega)

/-- A row of `W` read as a piece. -/
theorem rowPiece_apply (W : FVec Ideal S512x526 .f32) (o : Fin 512) (q : Fin 526) :
    (rowPiece W o).2 (ix2 0 q) = W (ix2 o q) := by
  show extractStridedSlice S1x526 ![o.val, 0] W (rowSlice o) (ix2 0 q) = W (ix2 o q)
  rw [slice2_apply]
  exact congrArg W (ix2_congr (Nat.add_zero _) (Nat.zero_add _))

set_option maxHeartbeats 4000000 in
/-- The rows pad at `(p, q)`: `W` at row `ρ p`. -/
theorem padRows_apply (W : FVec Ideal S512x526 .f32) (p q : Fin 526) :
    padRows W (ix2 p q) = W (ix2 (Dark.reflF p) q) := by
  obtain ⟨pv, hp⟩ := p
  have hcases : pv = 0 ∨ pv = 1 ∨ pv = 2 ∨ pv = 3 ∨ pv = 4 ∨ pv = 5 ∨ pv = 6 ∨ (7 ≤ pv ∧ pv < 519)
      ∨ pv = 519 ∨ pv = 520 ∨ pv = 521 ∨ pv = 522 ∨ pv = 523 ∨ pv = 524 ∨ pv = 525 := by omega
  unfold padRows
  rcases hcases with h | h | h | h | h | h | h | h | h | h | h | h | h | h | h
  · subst h
    exact (concat_row1 _ _ 0 (by simp) _ rfl 0 rfl hp q).trans ((rowPiece_apply W 7 q).trans (congrArg W (ix2_congr rfl rfl)))
  · subst h
    exact (concat_row1 _ _ 1 (by simp) _ rfl 1 rfl hp q).trans ((rowPiece_apply W 6 q).trans (congrArg W (ix2_congr rfl rfl)))
  · subst h
    exact (concat_row1 _ _ 2 (by simp) _ rfl 2 rfl hp q).trans ((rowPiece_apply W 5 q).trans (congrArg W (ix2_congr rfl rfl)))
  · subst h
    exact (concat_row1 _ _ 3 (by simp) _ rfl 3 rfl hp q).trans ((rowPiece_apply W 4 q).trans (congrArg W (ix2_congr rfl rfl)))
  · subst h
    exact (concat_row1 _ _ 4 (by simp) _ rfl 4 rfl hp q).trans ((rowPiece_apply W 3 q).trans (congrArg W (ix2_congr rfl rfl)))
  · subst h
    exact (concat_row1 _ _ 5 (by simp) _ rfl 5 rfl hp q).trans ((rowPiece_apply W 2 q).trans (congrArg W (ix2_congr rfl rfl)))
  · subst h
    exact (concat_row1 _ _ 6 (by simp) _ rfl 6 rfl hp q).trans ((rowPiece_apply W 1 q).trans (congrArg W (ix2_congr rfl rfl)))
  · refine (concat_rowTall _ _ 7 (by simp) W rfl 7 rfl pv hp q h.1 (by omega)).trans ?_
    refine congrArg W (ix2_congr ?_ rfl)
    show pv - 7 = Dark.refl pv
    unfold Dark.refl; rw [if_neg (by omega), if_pos h.2]
  · subst h
    exact (concat_row1 _ _ 8 (by simp) _ rfl 519 rfl hp q).trans ((rowPiece_apply W 510 q).trans (congrArg W (ix2_congr rfl rfl)))
  · subst h
    exact (concat_row1 _ _ 9 (by simp) _ rfl 520 rfl hp q).trans ((rowPiece_apply W 509 q).trans (congrArg W (ix2_congr rfl rfl)))
  · subst h
    exact (concat_row1 _ _ 10 (by simp) _ rfl 521 rfl hp q).trans ((rowPiece_apply W 508 q).trans (congrArg W (ix2_congr rfl rfl)))
  · subst h
    exact (concat_row1 _ _ 11 (by simp) _ rfl 522 rfl hp q).trans ((rowPiece_apply W 507 q).trans (congrArg W (ix2_congr rfl rfl)))
  · subst h
    exact (concat_row1 _ _ 12 (by simp) _ rfl 523 rfl hp q).trans ((rowPiece_apply W 506 q).trans (congrArg W (ix2_congr rfl rfl)))
  · subst h
    exact (concat_row1 _ _ 13 (by simp) _ rfl 524 rfl hp q).trans ((rowPiece_apply W 505 q).trans (congrArg W (ix2_congr rfl rfl)))
  · subst h
    exact (concat_row1 _ _ 14 (by simp) _ rfl 525 rfl hp q).trans ((rowPiece_apply W 504 q).trans (congrArg W (ix2_congr rfl rfl)))

/-! ## The channel minimum -/

/-- The entrywise minimum of the three channels of the input block, from +∞. -/
def chanMin (x0 : Vec Ideal S1x3x512x512 .f32) : FVec Ideal S512x512 .f32 :=
  multiReduction .minimumf [0] S512x512 (shapeCast S3x512x512 x0 shapeCasts_S1x3x512x512_S3x512x512) 0x7F800000#32
    reduces_S3x512x512_S512x512 (.inl rfl) rfl

/-- The index that drops to `(r, c)`, with channel `ch` put back in front. -/
theorem lift_chan (r c : Fin 512) (ch : Fin 3) :
    reduces_S3x512x512_S512x512.lift (ix2 r c) ch = ix3 ch r c := by
  funext a
  apply Fin.ext
  show reduces_S3x512x512_S512x512.liftVal (ix2 r c) ch.val a = _
  match a with
  | ⟨0, _⟩ => simp [Shape.Reduces.liftVal]
  | ⟨1, _⟩ => simp [Shape.Reduces.liftVal]
  | ⟨2, _⟩ => simp [Shape.Reduces.liftVal]

/-- A fold of the minimum from +∞ over the channel axis, at `(r, c)`: the infimum of the three channels' entries
    there (whatever evidence the reduction carries for its format and its start value). -/
theorem chanFold_apply (x0 : Vec Ideal S1x3x512x512 .f32) (hφ : FKind.Formats .f32)
    (hacc : (0x7F800000#32 : BitVec FTy.f32.bits) = FKind.minimumf.neutral .f32 hφ) (r c : Fin 512) :
    multiReduction (F := Ideal) .minimumf [0] S512x512 (shapeCast S3x512x512 x0 shapeCasts_S1x3x512x512_S3x512x512) 0x7F800000#32
      reduces_S3x512x512_S512x512 hφ hacc (ix2 r c) = ⨅ ch : Fin 3, x0 (ix4 0 ch r c) := by
  rw [multiReduction_minimumf_eq_fold, Shape.Reduces.fold_filter_drop_single]
  show (Finset.univ : Finset (Fin 3)).fold min (Ideal.ofBits .f32 0x7F800000#32)
    (fun k : Fin 3 => shapeCast S3x512x512 x0 shapeCasts_S1x3x512x512_S3x512x512 (reduces_S3x512x512_S512x512.lift (ix2 r c) k)) = _
  rw [MinFold.ofBits_inf_f32]
  simp only [lift_chan, shapeCast_1abc_abc_apply]
  exact MinFold.fold_min_univ_eq_iInf _

/-- The channel minimum at `(r, c)`: the infimum of the three channels' entries there. -/
theorem chanMin_apply (x0 : Vec Ideal S1x3x512x512 .f32) (r c : Fin 512) :
    chanMin x0 (ix2 r c) = ⨅ ch : Fin 3, x0 (ix4 0 ch r c) :=
  chanFold_apply x0 _ _ r c

/-! ## The padded array -/

/-- The padded array the passes run over is the rows pad of the columns pad of the channel minimum. -/
theorem padded_eq (x0 : Vec Ideal S1x3x512x512 .f32) : k0_pay2 x0 = padRows (padCols (chanMin x0)) := rfl

/-- The padded array at `(p, q)`: the infimum of the three channels at `(ρ p, ρ q)`. -/
theorem padded_apply (x0 : Vec Ideal S1x3x512x512 .f32) (p q : Fin 526) :
    k0_pay2 x0 (ix2 p q) = ⨅ ch : Fin 3, x0 (ix4 0 ch (Dark.reflF p) (Dark.reflF q)) := by
  rw [padded_eq, padRows_apply, padCols_apply, chanMin_apply]

end Cert.KernelIdeal.DarkValue

end
-- ==== Proof.KernelPayload.lean ====
/-
  The kernel body's stored value at an index of its output block, at the ideal float values.

  The column pass of the row pass gives, at row `r` and column `c`, the infimum over the 15 × 15 window of the
  padded array; the padded array at `(p, q)` is the infimum over the three channels of the loaded input block at
  `(ρ p, ρ q)`, `ρ` the reflection. Together: the infimum over the window and the channels of the block read
  through the reflection, which is the specification's term for one image.
-/
import proofs.«115973_j8375186227709_1_alg».proof.Proof.Gen.KernelIdeal.Skeleton
import proofs.«115973_j8375186227709_1_alg».proof.Proof.LibMinFold
import proofs.«115973_j8375186227709_1_alg».proof.Proof.Spec
import proofs.«115973_j8375186227709_1_alg».proof.Proof.Passes
import proofs.«115973_j8375186227709_1_alg».proof.Proof.PadRead
import Idealize.ShloMosaic.Lib.ValueIdx
import Idealize.ShloMosaic.Lib.Pipeline.Value
import Idealize.ShloMosaic.PureOps.Ideal.Laws

noncomputable section

namespace Cert.KernelIdeal.DarkValue

open Cert.KernelIdeal Cert.KernelIdeal.Gen Idealize.ShloMosaic Idealize.ShloMosaic.ValueIdx

/-- What the body stores at row `r`, column `c` of its output block, as a function of its loaded input block:
    the minimum over the window and the channels of the block read through the reflection. -/
theorem payload_apply (x0 : Vec Ideal S1x3x512x512 .f32) (r c : Fin 512) :
    k0_pay1 (k0_pay2 x0) (k0_pay3 x0) (k0_pay4 x0) (ix4 0 0 r c)
      = ⨅ (di : Fin 15) (dj : Fin 15) (ch : Fin 3), x0 (ix4 0 ch (Dark.reflF (Dark.tap r di)) (Dark.reflF (Dark.tap c dj))) := by
  rw [passes_apply]
  exact iInf_congr fun di => iInf_congr fun dj => padded_apply x0 _ _

end Cert.KernelIdeal.DarkValue

end
-- ==== Proof.KernelRun.lean ====
/-
  The kernel's run with its output array named.

  The kernel runs over a grid of 16 points. Point t loads image t of the input array (its 3 channels, each the
  whole 512 × 512 plane) and stores, over the whole of image t of the output array, the minimum over the 15 × 15
  window and the channels of the loaded image read through the reflection. So what point t writes back is block t
  of the dark channel of the input array. The 16 blocks cover the output array (index i lies in the block of the
  point i 0), hence after the run the output array is the dark channel of the input array; the input array is
  only read, so it is unchanged.
-/
import proofs.«115973_j8375186227709_1_alg».proof.Proof.Gen.KernelIdeal.Frame
import proofs.«115973_j8375186227709_1_alg».proof.Proof.KernelPayload
import proofs.«115973_j8375186227709_1_alg».proof.Proof.Spec
import Idealize.ShloMosaic.Lib.Pipeline.Value
import Idealize.ShloMosaic.Lib.ValueIdx

noncomputable section

namespace Cert.KernelIdeal.DarkValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The blocks' places -/

/-- The zero offsets of a whole-block access, as a constant function. -/
theorem zero_offsets : (![0, 0, 0, 0] : Fin 4 → Nat) = fun _ => 0 := funext fun a => by fin_cases a <;> rfl

/-- At point t both windows sit at block index (t, 0, 0, 0): image t, all of it. -/
theorem block_index : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0
    ∧ t.val < 16 :=
  (by decide +kernel : ∀ t : Fin grid0.N, _)

/-- The input block at point t is image t of the input array: channel ch, row r, column cc of the block is
    the array's element (t, ch, r, cc). -/
theorem block_read (c : Dev nD) (t : Fin cfg0.N) (ht : t.val < 16) (ch : Fin 3) (r cc : Fin 512) :
    iblk m c 0 t (ix4 (0 : Fin 1) ch r cc) = V m c main_arg0 (ix4 (⟨t.val, ht⟩ : Fin 16) ch r cc) := by
  obtain ⟨e0, e1, e2, e3, -⟩ := block_index t
  unfold iblk
  rw [View.read_apply]
  show V m c main_arg0 _ = V m c main_arg0 _
  congr 1
  funext a
  apply Fin.ext
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 512 + 1 * r.val = r.val; omega
  | ⟨3, _⟩ => show win0_0.index t (3 : Fin 4) * 512 + 1 * cc.val = cc.val; omega

/-! ## What a point stores -/

/-- For a block X that is image b of an array A, what the body stores at row r, column cc of its output block
    is the dark channel of A at (b, 0, r, cc): the two are the same infimum, term by term. -/
theorem stored_eq_dark (A : S16x3x512x512.Idx → EReal) (X : Vec Ideal S1x3x512x512 .f32) (b : Fin 16)
    (hX : ∀ (ch : Fin 3) (r cc : Fin 512), X (ix4 (0 : Fin 1) ch r cc) = A (ix4 b ch r cc)) (r cc : Fin 512) :
    k0_pay1 (k0_pay2 X) (k0_pay3 X) (k0_pay4 X) (ix4 (0 : Fin 1) (0 : Fin 1) r cc)
      = Dark.dark A (ix4 b (0 : Fin 1) r cc) := by
  rw [payload_apply, Dark.dark_apply]
  exact iInf_congr fun di => iInf_congr fun dj => iInf_congr fun ch => hX ch _ _

/-- What point t writes back is block t of the dark channel of the input array as the region finds it. -/
theorem flushed_eq (c : Dev nD) (t : Fin cfg0.N) :
    (dats m 0 c).flushed 1 t = ((cfg0.win 1).blk t).view.read (Elt Ideal) (Dark.dark (V m c main_arg0)) := by
  show (cfg0.win 1).cut (grid0.coords t) ((dats m 0 c).after 1 t) = _
  rw [after0_1]
  unfold out0_1
  rw [View.canon_unit_zero zero_offsets]
  simp only [View.ld_unit_zero (S := S1x3x512x512) zero_offsets]
  obtain ⟨-, -, -, -, e0, e1, e2, e3, ht⟩ := block_index t
  funext y
  have hy0 : (y 0).val < 1 := (y 0).isLt
  have hy1 : (y 1).val < 1 := (y 1).isLt
  have hy2 : (y 2).val < 512 := (y 2).isLt
  have hy3 : (y 3).val < 512 := (y 3).isLt
  -- the index inside the block, and its place in the array, by coordinates
  have hin : (cfg0.win 1).xinj (grid0.coords t) y
      = ix4 (0 : Fin 1) (0 : Fin 1) (⟨(y 2).val, hy2⟩ : Fin 512) (⟨(y 3).val, hy3⟩ : Fin 512) := by
    funext a
    apply Fin.ext
    match a with
    | ⟨0, _⟩ => show (y 0).val = 0; omega
    | ⟨1, _⟩ => show (y 1).val = 0; omega
    | ⟨2, _⟩ => rfl
    | ⟨3, _⟩ => rfl
  have hout : ((cfg0.win 1).blk t).view.emb y
      = ix4 (⟨t.val, ht⟩ : Fin 16) (0 : Fin 1) (⟨(y 2).val, hy2⟩ : Fin 512) (⟨(y 3).val, hy3⟩ : Fin 512) := by
    funext a
    apply Fin.ext
    match a with
    | ⟨0, _⟩ => show win0_1.index t (0 : Fin 4) * 1 + 1 * (y 0).val = t.val; omega
    | ⟨1, _⟩ => show win0_1.index t (1 : Fin 4) * 1 + 1 * (y 1).val = 0; omega
    | ⟨2, _⟩ => show win0_1.index t (2 : Fin 4) * 512 + 1 * (y 2).val = (y 2).val; omega
    | ⟨3, _⟩ => show win0_1.index t (3 : Fin 4) * 512 + 1 * (y 3).val = (y 3).val; omega
  show k0_pay1 (k0_pay2 (iblk m c 0 t)) (k0_pay3 (iblk m c 0 t)) (k0_pay4 (iblk m c 0 t)) ((cfg0.win 1).xinj (grid0.coords t) y)
    = Dark.dark (V m c main_arg0) (((cfg0.win 1).blk t).view.emb y)
  rw [hin, hout]
  exact stored_eq_dark (V m c main_arg0) (iblk m c 0 t) ⟨t.val, ht⟩ (block_read m c t ht) _ _

/-! ## The blocks cover the output array -/

/-- An index of the output array is in point t's block iff each coordinate is in the block's range on its axis. -/
theorem mem_block (t : Fin cfg0.N) (i : S16x1x512x512.Idx) :
    i ∈ ((cfg0.win 1).blk t).view.set ↔ ∀ a : Fin 4, win0_1.index t a * S1x1x512x512.size a ≤ (i a).val
      ∧ (i a).val < win0_1.index t a * S1x1x512x512.size a + S1x1x512x512.size a := by
  show i ∈ ((View.whole main_v0).slice (win0_1.rect t)).set ↔ _
  rw [View.set_slice_whole, Rect.mem_set_unit]
  exact Iff.rfl

/-- Every index i of the output array lies in the block of the point i 0, which writes back. -/
theorem covered (i : S16x1x512x512.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 512 := (i 2).isLt
  have hi3 : (i 3).val < 512 := (i 3).isLt
  obtain ⟨t, htv⟩ : ∃ t : Fin cfg0.N, t.val = (i 0).val := ⟨⟨(i 0).val, by rw [show cfg0.N = 16 from N_0]; exact hi0⟩, rfl⟩
  obtain ⟨-, -, -, -, e0, e1, e2, e3, -⟩ := block_index t
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- The output array after the run is the dark channel of the input array as the region finds it. -/
theorem final (c : Dev nD) : (dats m 0 c).arrAt 1 cfg0.N = Dark.dark (V m c main_arg0) :=
  (dats m 0 c).arrAt_eq_of_cover 1 (Dark.dark (V m c main_arg0)) (fun t _ => flushed_eq m c t) covered

/-- The input array is staged and never written back: it ends as launched. -/
theorem kept_input (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-! ## The run, read -/

/-- Every run of the kernel ends with the output array at the dark channel of the input array as launched, and
    the input array unchanged. -/
theorem run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v0) = Dark.dark (m ((c.tc : Thread nD τ).loc main_arg0))
        ∧ r.2.mem ((c.tc : Thread nD τ).loc main_arg0) = m ((c.tc : Thread nD τ).loc main_arg0)) :=
  (θ_run defs _ _).mono (fun r h c => ⟨((h c).1 1).trans (final m c), kept_input m r h c⟩) (run_main m ρ)

end Cert.KernelIdeal.DarkValue

end
-- ==== Proof.RefOut.lean ====
/-
  The reference's result as one function of its input array, stage by stage.

  The channel minimum of `x` (a fold of the minimum from +∞ over axis 1), with a unit channel axis put back;
  rows padded by reflection (rows 1..7 reversed in front; rows 504..510 reversed behind, read off the
  519-row intermediate at 511..517), then columns the same way; then the minimum over every 15 × 15 window
  of the padded array, again a fold from +∞.
-/
import proofs.«115973_j8375186227709_1_alg».proof.ReferenceIdeal

noncomputable section

namespace Cert.ReferenceIdeal.DarkRef

open Cert.ReferenceIdeal Idealize.ShloMosaic

variable {F : FTy → Type} [FloatOps F]

/-- The minimum over the 3 channels, from +∞. -/
def chanMin (x : FVec F S16x3x512x512 .f32) : FVec F S16x512x512 .f32 :=
  Host.reduce FloatOps.minimumf x (constant S_ .f32 0x7F800000#32) (by decide : S16x3x512x512.ReducesTo [1] S16x512x512) (by decide)

/-- The unit channel axis put back. -/
def unitChan (y : FVec F S16x512x512 .f32) : FVec F S16x1x512x512 .f32 :=
  broadcastInDim S16x1x512x512 ![0, 2, 3] (by decide) y

/-- Seven reflected rows in front: 519 rows. -/
def rowsFront (y : FVec F S16x1x512x512 .f32) : FVec F S16x1x519x512 .f32 :=
  concatenate S16x1x519x512 2
    [⟨S16x1x7x512, Host.reverse [2] (extractStridedSlice S16x1x7x512 ![0, 0, 1, 0] y (by decide))⟩, ⟨S16x1x512x512, y⟩]
    (show Shape.Concatenates [S16x1x7x512, S16x1x512x512] S16x1x519x512 2 by decide)

/-- Seven reflected rows behind: 526 rows. -/
def rowsBack (y : FVec F S16x1x519x512 .f32) : FVec F S16x1x526x512 .f32 :=
  concatenate S16x1x526x512 2
    [⟨S16x1x519x512, y⟩, ⟨S16x1x7x512, Host.reverse [2] (extractStridedSlice S16x1x7x512 ![0, 0, 511, 0] y (by decide))⟩]
    (show Shape.Concatenates [S16x1x519x512, S16x1x7x512] S16x1x526x512 2 by decide)

/-- Seven reflected columns in front: 519 columns. -/
def colsFront (y : FVec F S16x1x526x512 .f32) : FVec F S16x1x526x519 .f32 :=
  concatenate S16x1x526x519 3
    [⟨S16x1x526x7, Host.reverse [3] (extractStridedSlice S16x1x526x7 ![0, 0, 0, 1] y (by decide))⟩, ⟨S16x1x526x512, y⟩]
    (show Shape.Concatenates [S16x1x526x7, S16x1x526x512] S16x1x526x519 3 by decide)

/-- Seven reflected columns behind: 526 columns. -/
def colsBack (y : FVec F S16x1x526x519 .f32) : FVec F S16x1x526x526 .f32 :=
  concatenate S16x1x526x526 3
    [⟨S16x1x526x519, y⟩, ⟨S16x1x526x7, Host.reverse [3] (extractStridedSlice S16x1x526x7 ![0, 0, 0, 511] y (by decide))⟩]
    (show Shape.Concatenates [S16x1x526x519, S16x1x526x7] S16x1x526x526 3 by decide)

/-- The array padded by reflection, 7 on each side of both image axes. -/
def padded (y : FVec F S16x1x512x512 .f32) : FVec F S16x1x526x526 .f32 :=
  colsBack (colsFront (rowsBack (rowsFront y)))

/-- The minimum over every 15 × 15 window, from +∞. -/
def winMin (p : FVec F S16x1x526x526 .f32) : FVec F S16x1x512x512 .f32 :=
  Host.reduceWindow FloatOps.minimumf ![1, 1, 15, 15] ![1, 1, 1, 1] ![0, 0, 0, 0] ![0, 0, 0, 0] p
    (broadcastInDim S_ ![] (by decide) (constant S_ .f32 0x7F800000#32)) (by decide) (by decide)

/-- The reference's result of its input. -/
def out (x : FVec F S16x3x512x512 .f32) : FVec F S16x1x512x512 .f32 :=
  winMin (padded (unitChan (chanMin x)))

end Cert.ReferenceIdeal.DarkRef

end
-- ==== Proof.RefRun.lean ====
/-
  The reference program's run, read back. Its @main, with the outlined padding function and the two
  reversal functions it calls unfolded at their call sites, is one straight line of 23 host operations:
  the +∞ constant and the channel minimum folded from it, the unit channel axis, the (unused) integer
  zero; then the sixteen operations of the padding (per side of each image axis: a one-line slice that
  feeds nothing, the seven-line slice, its reversal, the concatenation); then the +∞ constant again,
  its rank-zero broadcast, and the 15 × 15 window minimum. Every weakly fair execution of that line
  terminates; the result buffer then holds `out` of the argument array and the argument is unchanged.
-/
import proofs.«115973_j8375186227709_1_alg».proof.Proof.Gen.ReferenceIdeal
import proofs.«115973_j8375186227709_1_alg».proof.Proof.RefOut
import Idealize.ShloMosaic.Lib.StableHlo.Run

noncomputable section

namespace Cert.ReferenceIdeal.DarkRef

open Cert.ReferenceIdeal Cert.ReferenceIdeal.Gen Idealize.ShloMosaic Idealize.ShloMosaic.TcCoe Idealize.SL.Sem
  Idealize.ShloMosaic.StableHlo

variable {F : FTy → Type} [FloatOps F]

/-- @main's 23 operations in order, the calls unfolded: four of @main's own, the padding function's sixteen
    over the buffers of its one call (each reversal a call of its own, one operation), @main's last three. -/
abbrev ops : List (HloOp τ sig (Elt F)) :=
  [ nullary main_cst (constant S_ .f32 0x7F800000#32),
    binary main_arg0 main_cst main_v0 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v0 main_v1 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c (constantI S_ 32 0#32),
    TRef.unary (.of main_v1 : TRef sig ⟨S16x1x512x512, .f32⟩) main_call0.v0 (extractStridedSlice S16x1x1x512 ![0, 0, 0, 0] · slices_S16x1x512x512_S16x1x1x512_0_0_0_0),
    TRef.unary (.of main_v1 : TRef sig ⟨S16x1x512x512, .f32⟩) main_call0.v1 (extractStridedSlice S16x1x7x512 ![0, 0, 1, 0] · slices_S16x1x512x512_S16x1x7x512_0_0_1_0),
    TRef.unary main_call0.v1 main_call0.call0.v0 (Host.reverse [2]),
    TRef.binary main_call0.call0.v0 (.of main_v1 : TRef sig ⟨S16x1x512x512, .f32⟩) main_call0.v3 (fun a b => concatenate S16x1x519x512 2 [⟨S16x1x7x512, a⟩, ⟨S16x1x512x512, b⟩] concatenates_S16x1x7x512_S16x1x512x512_S16x1x519x512_d2),
    TRef.unary main_call0.v3 main_call0.v4 (extractStridedSlice S16x1x1x512 ![0, 0, 518, 0] · slices_S16x1x519x512_S16x1x1x512_0_0_518_0),
    TRef.unary main_call0.v3 main_call0.v5 (extractStridedSlice S16x1x7x512 ![0, 0, 511, 0] · slices_S16x1x519x512_S16x1x7x512_0_0_511_0),
    TRef.unary main_call0.v5 main_call0.call1.v0 (Host.reverse [2]),
    TRef.binary main_call0.v3 main_call0.call1.v0 main_call0.v7 (fun a b => concatenate S16x1x526x512 2 [⟨S16x1x519x512, a⟩, ⟨S16x1x7x512, b⟩] concatenates_S16x1x519x512_S16x1x7x512_S16x1x526x512_d2),
    TRef.unary main_call0.v7 main_call0.v8 (extractStridedSlice S16x1x526x1 ![0, 0, 0, 0] · slices_S16x1x526x512_S16x1x526x1_0_0_0_0),
    TRef.unary main_call0.v7 main_call0.v9 (extractStridedSlice S16x1x526x7 ![0, 0, 0, 1] · slices_S16x1x526x512_S16x1x526x7_0_0_0_1),
    TRef.unary main_call0.v9 main_call0.call2.v0 (Host.reverse [3]),
    TRef.binary main_call0.call2.v0 main_call0.v7 main_call0.v11 (fun a b => concatenate S16x1x526x519 3 [⟨S16x1x526x7, a⟩, ⟨S16x1x526x512, b⟩] concatenates_S16x1x526x7_S16x1x526x512_S16x1x526x519_d3),
    TRef.unary main_call0.v11 main_call0.v12 (extractStridedSlice S16x1x526x1 ![0, 0, 0, 518] · slices_S16x1x526x519_S16x1x526x1_0_0_0_518),
    TRef.unary main_call0.v11 main_call0.v13 (extractStridedSlice S16x1x526x7 ![0, 0, 0, 511] · slices_S16x1x526x519_S16x1x526x7_0_0_0_511),
    TRef.unary main_call0.v13 main_call0.call3.v0 (Host.reverse [3]),
    TRef.binary main_call0.v11 main_call0.call3.v0 main_call0.v15 (fun a b => concatenate S16x1x526x526 3 [⟨S16x1x526x519, a⟩, ⟨S16x1x526x7, b⟩] concatenates_S16x1x526x519_S16x1x526x7_S16x1x526x526_d3),
    nullary main_cst_0 (constant S_ .f32 0x7F800000#32),
    unary main_cst_0 main_v3 (broadcastInDim S_ ![] bcast_S_S_ : (⟨S_, .f32⟩ : BufTy).Contents (Elt F) → (⟨S_, .f32⟩ : BufTy).Contents (Elt F)),
    binary main_v2 main_v3 main_v4 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)) ]

set_option maxRecDepth 1024 in
/-- @main is that straight line: the three functions' definitions unfolded at their calls, both sides are one
    chain of host steps once sequencing is reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    unary_bufs_sub .., unary_bufs_sub .., unary_bufs_sub .., binary_bufs_sub ..,
    nullary_bufs_sub .., unary_bufs_sub .., binary_bufs_sub ..⟩

/-! ## What the line leaves in the result buffer

The line in six stretches, each read from ANY contents `V`: a stretch's last buffer is one stage of `out` of
the buffer the stretch starts from. Each operation's result at its own buffer is its function's value and at
another buffer what was there; what is left is the stage's own term (the evidence arguments are proofs, and the
typed references' transports are the identity at these literal references). The array operations stay folded
meanwhile: no equation here looks inside them. -/

/-- The +∞ constant, the channel minimum, the unit axis, the integer zero. -/
abbrev opsA : List (HloOp τ sig (Elt F)) := (ops (F := F)).take 4
/-- Seven reflected rows in front. -/
abbrev opsB : List (HloOp τ sig (Elt F)) := ((ops (F := F)).drop 4).take 4
/-- Seven reflected rows behind. -/
abbrev opsC : List (HloOp τ sig (Elt F)) := ((ops (F := F)).drop 8).take 4
/-- Seven reflected columns in front. -/
abbrev opsD : List (HloOp τ sig (Elt F)) := ((ops (F := F)).drop 12).take 4
/-- Seven reflected columns behind. -/
abbrev opsE : List (HloOp τ sig (Elt F)) := ((ops (F := F)).drop 16).take 4
/-- The +∞ constant, its rank-zero broadcast, the window minimum. -/
abbrev opsF : List (HloOp τ sig (Elt F)) := (ops (F := F)).drop 20

theorem ops_split : (ops : List (HloOp τ sig (Elt F))) = opsA ++ (opsB ++ (opsC ++ (opsD ++ (opsE ++ opsF)))) := rfl

section Stages

attribute [local irreducible] Host.reduce Host.reduceWindow Host.reverse concatenate extractStridedSlice broadcastInDim constant

theorem stageA (V : Valuation τ sig (Elt F)) :
    after opsA V (main_v1 : DevRef τ sig) = unitChan (chanMin (V (main_arg0 : DevRef τ sig))) := by
  show after [_, _, _, _] V _ = _
  after_results
  rfl

theorem stageB (V : Valuation τ sig (Elt F)) :
    after opsB V (main_call0_v3 : DevRef τ sig) = rowsFront (V (main_v1 : DevRef τ sig)) := by
  show after [_, _, _, _] V _ = _
  after_results
  rfl

theorem stageC (V : Valuation τ sig (Elt F)) :
    after opsC V (main_call0_v7 : DevRef τ sig) = rowsBack (V (main_call0_v3 : DevRef τ sig)) := by
  show after [_, _, _, _] V _ = _
  after_results
  rfl

theorem stageD (V : Valuation τ sig (Elt F)) :
    after opsD V (main_call0_v11 : DevRef τ sig) = colsFront (V (main_call0_v7 : DevRef τ sig)) := by
  show after [_, _, _, _] V _ = _
  after_results
  rfl

theorem stageE (V : Valuation τ sig (Elt F)) :
    after opsE V (main_v2 : DevRef τ sig) = colsBack (V (main_call0_v11 : DevRef τ sig)) := by
  show after [_, _, _, _] V _ = _
  after_results
  rfl

theorem stageF (V : Valuation τ sig (Elt F)) :
    after opsF V (main_v4 : DevRef τ sig) = winMin (V (main_v2 : DevRef τ sig)) := by
  show after [_, _, _] V _ = _
  after_results
  rfl

end Stages

/-- The buffers after two lines run in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- What the result buffer holds after the whole line, from any contents `V`: `out` of the argument's —
    the six stretches one after the other, each stage read at the buffer the next starts from. -/
theorem result_is_out (V : Valuation τ sig (Elt F)) :
    after ops V (main_v4 : DevRef τ sig) = out (V (main_arg0 : DevRef τ sig)) := by
  rw [ops_split, after_app, after_app, after_app, after_app, after_app,
    stageF, stageE, stageD, stageC, stageB, stageA]
  rfl

/-- No operation of the line writes the argument's buffer. -/
theorem arg0_eq (V : Valuation τ sig (Elt F)) :
    after ops V (main_arg0 : DevRef τ sig) = V (main_arg0 : DevRef τ sig) := by
  after_results

/-- On every device, for any float values, from any memory with zero counters: every weakly fair execution of
    @main terminates with the result buffer at `out` of the argument array, and the argument unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => ∀ c : Dev nD,
        r.2.mem ((c.tc : Thread nD τ).loc main_v4) = out (F := F) (m ((c.tc : Thread nD τ).loc main_arg0))
        ∧ r.2.mem ((c.tc : Thread nD τ).loc main_arg0) = m ((c.tc : Thread nD τ).loc main_arg0)) :=
  (θ_run defs _ _).mono (fun _ h c => ⟨(h c main_v4).trans (result_is_out _), (h c main_arg0).trans (arg0_eq _)⟩)
    (run_seq scopedRefs_eq scopedSems_eq defs main (fun _ => ops) main_eq (fun _ => ops_sub) m ρ)

end Cert.ReferenceIdeal.DarkRef

end
-- ==== Proof.RefValue.lean ====
/-
  The reference's value: its result is the dark channel of its input.

  Stage by stage, at an index given by its coordinates. The channel minimum is a fold of the minimum from +∞
  over the 3 coordinates of the channel axis, so it is the infimum over the channels. Putting the unit axis
  back reads the same element. Each of the four pad stages is a two-piece concatenation, read by where the
  coordinate on the padded axis falls: in front, the seven reversed rows 1..7 and then the array (row `p`
  reads row `7 - p` below 7 and `p - 7` from 7 on); behind, the array and then the seven reversed rows
  511..517 of the 519-row intermediate (row `p` reads `p` below 519 and `1036 - p` from 519 on); composed,
  that is the reflection `7 - p`, `p - 7`, `1029 - p` of the padded axis, and the columns go the same way.
  The window minimum is a left fold of the minimum from +∞ over the 225 positions of a 1 × 1 × 15 × 15
  window in row-major order; no position falls outside the padded array, so every step takes an element of
  it, and the fold is the infimum over the two offsets. Chained, the three infima are the dark channel's.
-/
import proofs.«115973_j8375186227709_1_alg».proof.Proof.RefOut
import proofs.«115973_j8375186227709_1_alg».proof.Proof.Spec
import proofs.«115973_j8375186227709_1_alg».proof.Proof.LibMinFold
import Idealize.ShloMosaic.Lib.ValueIdx
import Idealize.ShloMosaic.Lib.Pipeline.Value
import Idealize.ShloMosaic.PureOps.Ideal.Laws

noncomputable section

namespace Cert.ReferenceIdeal.DarkRef

open Cert.ReferenceIdeal Idealize.ShloMosaic Idealize.ShloMosaic.ValueIdx

/-- The source index over `(b, r, c)` with channel `k`. -/
theorem lift_chan (h : S16x3x512x512.Reduces [(1 : Fin 4)] S16x512x512) (b : Fin 16) (r c : Fin 512) (k : Fin 3) :
    h.lift (ix3 b r c) k = ix4 b k r c := by
  funext a
  apply Fin.ext
  show h.liftVal (ix3 b r c) k.val a = _
  match a with
  | ⟨0, _⟩ => simp [Shape.Reduces.liftVal]
  | ⟨1, _⟩ => simp [Shape.Reduces.liftVal]
  | ⟨2, _⟩ => simp [Shape.Reduces.liftVal]
  | ⟨3, _⟩ => simp [Shape.Reduces.liftVal]

theorem chanMin_apply (x : FVec Ideal S16x3x512x512 .f32) (b : Fin 16) (r c : Fin 512) :
    chanMin (F := Ideal) x (ix3 b r c) = ⨅ ch : Fin 3, x (ix4 b ch r c) := by
  have h : S16x3x512x512.Reduces [(1 : Fin 4)] S16x512x512 := by decide
  unfold chanMin
  rw [Host.reduce_eq_fold_single (a := (1 : Fin 4)) FloatOps.minimumf x _ _ h]
  show (Finset.univ : Finset (Fin 3)).fold min (Ideal.ofBits .f32 0x7F800000#32) (fun k : Fin 3 => x (h.lift (ix3 b r c) k)) = _
  rw [MinFold.ofBits_inf_f32]
  simp only [lift_chan]
  exact MinFold.fold_min_univ_eq_iInf _

theorem unitChan_apply (y : FVec Ideal S16x512x512 .f32) (b : Fin 16) (u : Fin 1) (r c : Fin 512) :
    unitChan (F := Ideal) y (ix4 b u r c) = y (ix3 b r c) := by
  unfold unitChan
  refine broadcastInDim_apply _ _ y _ (ix3 b r c) fun a => ?_
  match a with
  | ⟨0, _⟩ => rfl
  | ⟨1, _⟩ => rfl
  | ⟨2, _⟩ => rfl

/-- Row `p` of the array with seven reflected rows in front reads row `7 - p` below 7 and row `p - 7` from 7 on. -/
theorem rowsFront_apply (y : FVec Ideal S16x1x512x512 .f32) (b : Fin 16) (u : Fin 1) (p : Fin 519) (c : Fin 512) :
    rowsFront (F := Ideal) y (ix4 b u p c)
      = y (ix4 b u (⟨if p.val < 7 then 7 - p.val else p.val - 7, by have := p.isLt; split_ifs <;> omega⟩ : Fin 512) c) := by
  unfold rowsFront
  by_cases hp : p.val < 7
  · refine (concatenate_pair_apply_left (t := S16x1x519x512) (s₁ := S16x1x7x512) (s₂ := S16x1x512x512) 2 _ _ _ (ix4 b u p c) rfl
      (ix4 b u (⟨p.val, hp⟩ : Fin 7) c) fun a => ?_).trans ?_
    · match a with
      | ⟨0, _⟩ => rfl
      | ⟨1, _⟩ => rfl
      | ⟨2, _⟩ => rfl
      | ⟨3, _⟩ => rfl
    · unfold Host.reverse
      refine extractStridedSlice_apply _ y _ _ _ fun a => ?_
      match a with
      | ⟨0, _⟩ => simp
      | ⟨1, _⟩ => simp
      | ⟨2, _⟩ => simp [hp]; omega
      | ⟨3, _⟩ => simp
  · refine (concatenate_pair_apply_right (t := S16x1x519x512) (s₁ := S16x1x7x512) (s₂ := S16x1x512x512) 2 _ _ _ (ix4 b u p c) rfl rfl
      (ix4 b u (⟨p.val - 7, by have := p.isLt; omega⟩ : Fin 512) c) (fun a ha => ?_) ?_).trans ?_
    · match a with
      | ⟨0, _⟩ => rfl
      | ⟨1, _⟩ => rfl
      | ⟨2, _⟩ => exact absurd rfl ha
      | ⟨3, _⟩ => rfl
    · show (p.val - 7) + 7 = p.val
      omega
    · simp [hp]

/-- Row `p` of the array with seven reflected rows behind reads row `p` below 519 and row `1036 - p` from 519 on. -/
theorem rowsBack_apply (z : FVec Ideal S16x1x519x512 .f32) (b : Fin 16) (u : Fin 1) (p : Fin 526) (c : Fin 512) :
    rowsBack (F := Ideal) z (ix4 b u p c)
      = z (ix4 b u (⟨if p.val < 519 then p.val else 1036 - p.val, by have := p.isLt; split_ifs <;> omega⟩ : Fin 519) c) := by
  unfold rowsBack
  by_cases hp : p.val < 519
  · refine (concatenate_pair_apply_left (t := S16x1x526x512) (s₁ := S16x1x519x512) (s₂ := S16x1x7x512) 2 _ _ _ (ix4 b u p c) rfl
      (ix4 b u (⟨p.val, hp⟩ : Fin 519) c) fun a => ?_).trans ?_
    · match a with
      | ⟨0, _⟩ => rfl
      | ⟨1, _⟩ => rfl
      | ⟨2, _⟩ => rfl
      | ⟨3, _⟩ => rfl
    · simp [hp]
  · refine (concatenate_pair_apply_right (t := S16x1x526x512) (s₁ := S16x1x519x512) (s₂ := S16x1x7x512) 2 _ _ _ (ix4 b u p c) rfl rfl
      (ix4 b u (⟨p.val - 519, by have := p.isLt; omega⟩ : Fin 7) c) (fun a ha => ?_) ?_).trans ?_
    · match a with
      | ⟨0, _⟩ => rfl
      | ⟨1, _⟩ => rfl
      | ⟨2, _⟩ => exact absurd rfl ha
      | ⟨3, _⟩ => rfl
    · show (p.val - 519) + 519 = p.val
      omega
    · unfold Host.reverse
      refine extractStridedSlice_apply _ z _ _ _ fun a => ?_
      have := p.isLt
      match a with
      | ⟨0, _⟩ => simp
      | ⟨1, _⟩ => simp
      | ⟨2, _⟩ => simp [hp]; omega
      | ⟨3, _⟩ => simp

/-- Column `q` of the array with seven reflected columns in front reads column `7 - q` below 7 and `q - 7` from 7 on. -/
theorem colsFront_apply (y : FVec Ideal S16x1x526x512 .f32) (b : Fin 16) (u : Fin 1) (p : Fin 526) (q : Fin 519) :
    colsFront (F := Ideal) y (ix4 b u p q)
      = y (ix4 b u p (⟨if q.val < 7 then 7 - q.val else q.val - 7, by have := q.isLt; split_ifs <;> omega⟩ : Fin 512)) := by
  unfold colsFront
  by_cases hq : q.val < 7
  · refine (concatenate_pair_apply_left (t := S16x1x526x519) (s₁ := S16x1x526x7) (s₂ := S16x1x526x512) 3 _ _ _ (ix4 b u p q) rfl
      (ix4 b u p (⟨q.val, hq⟩ : Fin 7)) fun a => ?_).trans ?_
    · match a with
      | ⟨0, _⟩ => rfl
      | ⟨1, _⟩ => rfl
      | ⟨2, _⟩ => rfl
      | ⟨3, _⟩ => rfl
    · unfold Host.reverse
      refine extractStridedSlice_apply _ y _ _ _ fun a => ?_
      match a with
      | ⟨0, _⟩ => simp
      | ⟨1, _⟩ => simp
      | ⟨2, _⟩ => simp
      | ⟨3, _⟩ => simp [hq]; omega
  · refine (concatenate_pair_apply_right (t := S16x1x526x519) (s₁ := S16x1x526x7) (s₂ := S16x1x526x512) 3 _ _ _ (ix4 b u p q) rfl rfl
      (ix4 b u p (⟨q.val - 7, by have := q.isLt; omega⟩ : Fin 512)) (fun a ha => ?_) ?_).trans ?_
    · match a with
      | ⟨0, _⟩ => rfl
      | ⟨1, _⟩ => rfl
      | ⟨2, _⟩ => rfl
      | ⟨3, _⟩ => exact absurd rfl ha
    · show (q.val - 7) + 7 = q.val
      omega
    · simp [hq]

/-- Column `q` of the array with seven reflected columns behind reads column `q` below 519 and `1036 - q` from 519 on. -/
theorem colsBack_apply (z : FVec Ideal S16x1x526x519 .f32) (b : Fin 16) (u : Fin 1) (p : Fin 526) (q : Fin 526) :
    colsBack (F := Ideal) z (ix4 b u p q)
      = z (ix4 b u p (⟨if q.val < 519 then q.val else 1036 - q.val, by have := q.isLt; split_ifs <;> omega⟩ : Fin 519)) := by
  unfold colsBack
  by_cases hq : q.val < 519
  · refine (concatenate_pair_apply_left (t := S16x1x526x526) (s₁ := S16x1x526x519) (s₂ := S16x1x526x7) 3 _ _ _ (ix4 b u p q) rfl
      (ix4 b u p (⟨q.val, hq⟩ : Fin 519)) fun a => ?_).trans ?_
    · match a with
      | ⟨0, _⟩ => rfl
      | ⟨1, _⟩ => rfl
      | ⟨2, _⟩ => rfl
      | ⟨3, _⟩ => rfl
    · simp [hq]
  · refine (concatenate_pair_apply_right (t := S16x1x526x526) (s₁ := S16x1x526x519) (s₂ := S16x1x526x7) 3 _ _ _ (ix4 b u p q) rfl rfl
      (ix4 b u p (⟨q.val - 519, by have := q.isLt; omega⟩ : Fin 7)) (fun a ha => ?_) ?_).trans ?_
    · match a with
      | ⟨0, _⟩ => rfl
      | ⟨1, _⟩ => rfl
      | ⟨2, _⟩ => rfl
      | ⟨3, _⟩ => exact absurd rfl ha
    · show (q.val - 519) + 519 = q.val
      omega
    · unfold Host.reverse
      refine extractStridedSlice_apply _ z _ _ _ fun a => ?_
      have := q.isLt
      match a with
      | ⟨0, _⟩ => simp
      | ⟨1, _⟩ => simp
      | ⟨2, _⟩ => simp
      | ⟨3, _⟩ => simp [hq]; omega

/-- Reading through the back reflection and then the front one is the reflection of the padded axis. -/
theorem refl_comp (k : Nat) (hk : k < 526) :
    (if (if k < 519 then k else 1036 - k) < 7 then 7 - (if k < 519 then k else 1036 - k)
      else (if k < 519 then k else 1036 - k) - 7) = Dark.refl k := by
  unfold Dark.refl
  split_ifs <;> omega

/-- Both row stages: row `p` of the 526 reads the reflected row. -/
theorem rows_apply (y : FVec Ideal S16x1x512x512 .f32) (b : Fin 16) (u : Fin 1) (p : Fin 526) (c : Fin 512) :
    rowsBack (F := Ideal) (rowsFront y) (ix4 b u p c) = y (ix4 b u (Dark.reflF p) c) := by
  rw [rowsBack_apply, rowsFront_apply]
  exact congrArg (fun k => y (ix4 b u k c)) (Fin.ext (refl_comp p.val p.isLt))

/-- Both column stages: column `q` of the 526 reads the reflected column. -/
theorem cols_apply (y : FVec Ideal S16x1x526x512 .f32) (b : Fin 16) (u : Fin 1) (p q : Fin 526) :
    colsBack (F := Ideal) (colsFront y) (ix4 b u p q) = y (ix4 b u p (Dark.reflF q)) := by
  rw [colsBack_apply, colsFront_apply]
  exact congrArg (fun k => y (ix4 b u p k)) (Fin.ext (refl_comp q.val q.isLt))

/-- The padded array reads the array through the reflection on both image axes. -/
theorem padded_apply (y : FVec Ideal S16x1x512x512 .f32) (b : Fin 16) (u : Fin 1) (p q : Fin 526) :
    padded (F := Ideal) y (ix4 b u p q) = y (ix4 b u (Dark.reflF p) (Dark.reflF q)) := by
  unfold padded
  rw [cols_apply, rows_apply]

/-- The window's shape: one position on the batch and channel axes, 15 on each image axis. -/
abbrev Win : Shape := ⟨4, ![1, 1, 15, 15]⟩

theorem winMin_apply (P : FVec Ideal S16x1x526x526 .f32) (b : Fin 16) (u : Fin 1) (r c : Fin 512) :
    winMin (F := Ideal) P (ix4 b u r c) = ⨅ (di : Fin 15) (dj : Fin 15), P (ix4 b u (Dark.tap r di) (Dark.tap c dj)) := by
  -- the padded array at window position `w` of the window that starts at `(r, c)`
  let G : Win.Idx → EReal := fun w => P (ix4 b u (Dark.tap r (w 2)) (Dark.tap c (w 3)))
  unfold winMin Host.reduceWindow
  dsimp only
  -- every window position lies inside the padded array, so every step of the fold takes the array's element
  refine (List.foldl_ext _ (fun acc n => min acc (G (Win.rowMajor.symm n))) _ fun acc n _ => ?_).trans ?_
  · show min acc _ = min acc _
    congr 1
    have h0 : (Win.rowMajor.symm n 0).val < 1 := (Win.rowMajor.symm n 0).isLt
    have h1 : (Win.rowMajor.symm n 1).val < 1 := (Win.rowMajor.symm n 1).isLt
    have h2 : (Win.rowMajor.symm n 2).val < 15 := (Win.rowMajor.symm n 2).isLt
    have h3 : (Win.rowMajor.symm n 3).val < 15 := (Win.rowMajor.symm n 3).isLt
    have hb := b.isLt
    have hu := u.isLt
    have hr := r.isLt
    have hc := c.isLt
    split
    · refine congrArg P (funext fun a => Fin.ext ?_)
      match a with
      | ⟨0, _⟩ =>
        show b.val * 1 + (Win.rowMajor.symm n 0).val - 0 = b.val
        omega
      | ⟨1, _⟩ =>
        show u.val * 1 + (Win.rowMajor.symm n 1).val - 0 = u.val
        omega
      | ⟨2, _⟩ =>
        show r.val * 1 + (Win.rowMajor.symm n 2).val - 0 = r.val + (Win.rowMajor.symm n 2).val
        omega
      | ⟨3, _⟩ =>
        show c.val * 1 + (Win.rowMajor.symm n 3).val - 0 = c.val + (Win.rowMajor.symm n 3).val
        omega
    · next hn =>
      refine absurd (fun a => ?_) hn
      match a with
      | ⟨0, _⟩ =>
        show 0 ≤ b.val * 1 + (Win.rowMajor.symm n 0).val ∧ b.val * 1 + (Win.rowMajor.symm n 0).val - 0 < 16
        omega
      | ⟨1, _⟩ =>
        show 0 ≤ u.val * 1 + (Win.rowMajor.symm n 1).val ∧ u.val * 1 + (Win.rowMajor.symm n 1).val - 0 < 1
        omega
      | ⟨2, _⟩ =>
        show 0 ≤ r.val * 1 + (Win.rowMajor.symm n 2).val ∧ r.val * 1 + (Win.rowMajor.symm n 2).val - 0 < 526
        omega
      | ⟨3, _⟩ =>
        show 0 ≤ c.val * 1 + (Win.rowMajor.symm n 3).val ∧ c.val * 1 + (Win.rowMajor.symm n 3).val - 0 < 526
        omega
  · -- the fold starts at the top element, so it is the infimum over the window's positions
    show List.foldl (fun acc n => min acc (G (Win.rowMajor.symm n))) (Ideal.ofBits .f32 0x7F800000#32) (List.finRange Win.numel) = _
    rw [MinFold.ofBits_inf_f32, MinFold.foldl_min_finRange (fun n => G (Win.rowMajor.symm n))]
    -- the positions in row-major order are all the pairs of offsets
    refine eq_of_forall_le_iff fun z => ?_
    simp only [le_iInf_iff]
    refine ⟨fun h di dj => ?_, fun h n => h _ _⟩
    have := h (Win.rowMajor (ix4 0 0 di dj))
    rw [Equiv.symm_apply_apply] at this
    exact this

/-- The reference's result is the dark channel of its input. -/
theorem out_eq (x : FVec Ideal S16x3x512x512 .f32) : out (F := Ideal) x = Dark.dark x := by
  funext i
  obtain ⟨b, u, r, c, rfl⟩ : ∃ (b : Fin 16) (u : Fin 1) (r c : Fin 512), i = ix4 b u r c :=
    ⟨i 0, i 1, i 2, i 3, eq_ix4 i⟩
  rw [Dark.dark_apply]
  unfold out Dark.darkAt
  rw [winMin_apply]
  simp only [padded_apply, unitChan_apply, chanMin_apply]

end Cert.ReferenceIdeal.DarkRef

end
-- ==== Proof.lean ====
/-
  The dark channel kernel against its reference, over the extended reals.

  Both programs compute, for an image batch `x` of shape [16, 3, 512, 512], the array whose entry `[b, 0, r, c]`
  is the minimum over a 15 × 15 window of offsets `(di, dj)` and the 3 channels `ch` of
  `x[b, ch, ρ(r + di), ρ(c + dj)]`, where `ρ` reflects a coordinate of the axis padded by 7 on each side back
  onto the axis (Proof/Spec.lean). The kernel works image by image: it takes the channel minimum, pads it with
  static slices (columns first, then rows) and takes the window minimum separably, fifteen taps along the
  columns and then fifteen along the rows, each fold started at +∞. The reference takes the channel minimum of
  the whole batch, pads with reversed slices (rows first, then columns) and takes the window minimum in one
  fold over the 225 window positions from +∞. On the extended reals a fold of `min` from +∞ is the infimum of
  its terms in any order and grouping (Proof/LibMinFold.lean), so each side is the specification's iterated
  infimum and the two agree; no finiteness of the input is used. The ideal pass rewrote nothing in the kernel,
  so the idealization claim is trivial. The three frames: the kernel's two are the generated ones; the
  reference's is its run (Proof/RefRun.lean) with the result dropped.
-/
import proofs.«115973_j8375186227709_1_alg».proof.Defs
import proofs.«115973_j8375186227709_1_alg».proof.Proof.Gen.Kernel
import proofs.«115973_j8375186227709_1_alg».proof.Proof.Gen.Kernel.Frame
import proofs.«115973_j8375186227709_1_alg».proof.Proof.Gen.KernelIdeal
import proofs.«115973_j8375186227709_1_alg».proof.Proof.Gen.KernelIdeal.Frame
import proofs.«115973_j8375186227709_1_alg».proof.Proof.Gen.ReferenceIdeal
import proofs.«115973_j8375186227709_1_alg».proof.Proof.Gen.Pre_finite_inputs
import proofs.«115973_j8375186227709_1_alg».proof.Proof.KernelRun
import proofs.«115973_j8375186227709_1_alg».proof.Proof.RefRun
import proofs.«115973_j8375186227709_1_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The idealized reference runs and leaves its argument unchanged: its run, with the result dropped. -/
theorem frame_referenceIdeal : Cert.frame_ReferenceIdeal := fun m ρ _ =>
  (θ_run Cert.ReferenceIdeal.defs _ _).mono (fun _ h c => (h c).2) (Cert.ReferenceIdeal.DarkRef.run m ρ)

/-- From memories that agree on the argument both runs end at the dark channel of that argument. -/
theorem algebraic : Cert.algebraic_KernelIdeal_ReferenceIdeal := by
  intro m ρ m' ρ' _ hagree
  refine ⟨_, Cert.KernelIdeal.DarkValue.run m ρ, ?_⟩
  refine (θ_run Cert.ReferenceIdeal.defs _ _).mono (fun _ h c => ⟨(h c).1.trans ?_, (h c).2⟩)
    (Cert.ReferenceIdeal.DarkRef.run m' ρ')
  rw [hagree c]
  exact Cert.ReferenceIdeal.DarkRef.out_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
